-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S1024 : S_.BroadcastsInDim S1024 (![] : Fin 0 → Fin S1024.rank)
  reducesTo_S1024_S_d0 : S1024.ReducesTo [0] S_
  bcast_S_S2x1024 : S_.BroadcastsInDim S2x1024 (![] : Fin 0 → Fin S2x1024.rank)
  reducesTo_S2x1024_S_d0_1 : S2x1024.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S1024x768 .f32) (main_arg5 : FVec F S2x1024 .f32) (main_arg6 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x768 .f32 := Host.absf main_arg4
  let main_cst_6 : FVec F S_ .f32 := constant S_ .f32 0x7F800000#32
  let main_v20 : FVec F S1024x768 .f32 := broadcastInDim S1024x768 ![] bcast_S_S1024x768 main_cst_6
  let main_v21 : IVec S1024x768 1 := cmpf .olt main_v19 main_v20
  let main_c_7 : IVec S_ 1 := constantI S_ 1 1#1
  let main_v22 : IVec S_ 1 := (fun x v => Host.reduce IntOp.andi x v reducesTo_S1024x768_S_d0_1 h_S_) main_v21 main_c_7
  let main_v23 : IVec S_ 1 := andi main_v18 main_v22
  let main_v24 : FVec F S2x1024 .f32 := Host.absf main_arg5
  let main_cst_8 : FVec F S_ .f32 := constant S_ .f32 0x7F800000#32
  let main_v25 : FVec F S2x1024 .f32 := broadcastInDim S2x1024 ![] bcast_S_S2x1024 main_cst_8
  let main_v26 : IVec S2x1024 1 := cmpf .olt main_v24 main_v25
  let main_c_9 : IVec S_ 1 := constantI S_ 1 1#1
  let main_v27 : IVec S_ 1 := (fun x v => Host.reduce IntOp.andi x v reducesTo_S2x1024_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S4x128x768 .f32) (main_arg1 : FVec F S4x128x768 .f32) (main_arg2 : FVec F S1024x768 .f32) (main_arg3 : FVec F S1024 .f32) (main_arg4 : FVec F S1024x768 .f32) (main_arg5 : FVec F S2x1024 .f32) (main_arg6 : FVec F S2 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S4x128x768 .f32 := Host.absf main_arg1
  let main_cst_0 : FVec F S_ .f32 := constant S_ .f32 0x7F800000#32
  let main_v5 : FVec F S4x128x768 .f32 := broadcastInDim S4x128x768 ![] bcast_S_S4x128x768 main_cst_0
  let main_v6 : IVec S4x128x768 1 := cmpf .olt main_v4 main_v5
  let main_c_1 : IVec S_ 1 := constantI S_ 1 1#1
  let main_v7 : IVec S_ 1 := (fun x v => Host.reduce IntOp.andi x v reducesTo_S4x128x768_S_d0_1_2 h_S_) main_v6 main_c_1
  let main_v8 : IVec S_ 1 := andi main_v3 main_v7
  let main_v9 : FVec F S1024x768 .f32 := Host.absf main_arg2
  let main_cst_2 : FVec F S_ .f32 := constant S_ .f32 0x7F800000#32
  let main_v10 : FVec F S1024x768 .f32 := broadcastInDim S1024x768 ![] bcast_S_S1024x768 main_cst_2
  let main_v11 : IVec S1024x768 1 := cmpf .olt main_v9 main_v10
  let main_c_3 : IVec S_ 1 := constantI S_ 1 1#1
  let main_v12 : IVec S_ 1 := (fun x v => Host.reduce IntOp.andi x v reducesTo_S1024x768_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S4x128x128x2 : Shape := ⟨4, ![4, 128, 128, 2]⟩
abbrev S1x128x768 : Shape := ⟨3, ![1, 128, 768]⟩
abbrev S128x768 : Shape := ⟨2, ![128, 768]⟩
abbrev S128 : Shape := ⟨1, ![128]⟩
abbrev S2x128 : Shape := ⟨2, ![2, 128]⟩
abbrev S1x128x128x2 : Shape := ⟨4, ![1, 128, 128, 2]⟩
abbrev S128x128x2 : Shape := ⟨3, ![128, 128, 2]⟩
abbrev S768x128 : Shape := ⟨2, ![768, 128]⟩
abbrev S128x128 : Shape := ⟨2, ![128, 128]⟩
abbrev S1x128 : Shape := ⟨2, ![1, 128]⟩
abbrev S128x1x128 : Shape := ⟨3, ![128, 1, 128]⟩
abbrev S1x128x128 : Shape := ⟨3, ![1, 128, 128]⟩
abbrev S128x128x128 : Shape := ⟨3, ![128, 128, 128]⟩
abbrev S16384x128 : Shape := ⟨2, ![16384, 128]⟩
abbrev S128x2 : Shape := ⟨2, ![128, 2]⟩
abbrev S16384x2 : Shape := ⟨2, ![16384, 2]⟩
abbrev S1x1x2 : Shape := ⟨3, ![1, 1, 2]⟩

abbrev nBuf : Space → Nat
  | .hbm => 8
  | .vmem => 16
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S2x1024, .f32⟩
  | .hbm, ⟨6, _⟩ => ⟨S2, .f32⟩
  | .hbm, ⟨7, _⟩ => ⟨S4x128x128x2, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S128x768, .f32⟩
  | .local _ .vmem, ⟨5, _⟩ => ⟨S128x768, .f32⟩
  | .local _ .vmem, ⟨6, _⟩ => ⟨S128, .f32⟩
  | .local _ .vmem, ⟨7, _⟩ => ⟨S128, .f32⟩
  | .local _ .vmem, ⟨8, _⟩ => ⟨S128x768, .f32⟩
  | .local _ .vmem, ⟨9, _⟩ => ⟨S128x768, .f32⟩
  | .local _ .vmem, ⟨10, _⟩ => ⟨S2x128, .f32⟩
  | .local _ .vmem, ⟨11, _⟩ => ⟨S2x128, .f32⟩
  | .local _ .vmem, ⟨12, _⟩ => ⟨S2, .f32⟩
  | .local _ .vmem, ⟨13, _⟩ => ⟨S1x128x128x2, .f32⟩
  | .local _ .vmem, ⟨14, _⟩ => ⟨S1x128x128x2, .f32⟩
  | .local _ .vmem, ⟨15, _⟩ => ⟨S128x128x2, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_22 : BitVec 32 := 0#32
  let v42 : BitVec 1 := Scalar.cmpi .ne v41 c0_i32_22
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S128x128x2_S128x128x2_0_0_0 : ∀ a, (![0, 0, 0] : Fin 3 → Nat) a + S128x128x2.size a ≤ S128x128x2.size a
  h_S128x128x2 : 0 < S128x128x2.numel
  shapeCasts_S128x128x2_S128x128x2 : S128x128x2.ShapeCasts S128x128x2
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  bitsLt_bf16_f32 : FTy.bits .bf16 < FTy.bits .f32
  inb_S128x768_S128x768_0_0 : ∀ a, (![0, 0] : Fin 2 → Nat) a + S128x768.size a ≤ S128x768.size a
  h_S128x768 : 0 < S128x768.numel
  inb_S128_S128_0 : ∀ a, (![0] : Fin 1 → Nat) a + S128.size a ≤ S128.size a
  h_S128 : 0 < S128.numel
  inb_S2x128_S2x128_0_0 : ∀ a, (![0, 0] : Fin 2 → Nat) a + S2x128.size a ≤ S2x128.size a
  h_S2x128 : 0 < S2x128.numel
  transposes_S128x768_p1_0_S768x128 : S128x768.Transposes [1, 0] S768x128
  shapeCasts_S128_S1x128 : S128.ShapeCasts S1x128
  broadcasts_S1x128_S128x128 : S1x128.Broadcasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128x128_S16384x128 : S128x128x128.ShapeCasts S16384x128
  transposes_S2x128_p1_0_S128x2 : S2x128.Transposes [1, 0] S128x2
  shapeCasts_S16384x2_S128x128x2 : S16384x2.ShapeCasts S128x128x2
  inb_S2_S2_0 : ∀ a, (![0] : Fin 1 → Nat) a + S2.size a ≤ S2.size a
  h_S2 : 0 < S2.numel
  shapeCasts_S2_S1x1x2 : S2.ShapeCasts S1x1x2
  broadcasts_S1x1x2_S128x128x2 : S1x1x2.Broadcasts S128x128x2
  inb_S1x128x128x2_S1x128x128x2_0_0_0_0 : ∀ a, (![0, 0, 0, 0] : Fin 4 → Nat) a + S1x128x128x2.size a ≤ S1x128x128x2.size a
  h_S1x128x128x2 : 0 < S1x128x128x2.numel
  shapeCasts_S1x128x128x2_S128x128x2 : S1x128x128x2.ShapeCasts S128x128x2
  shapeCasts_S128x128x2_S1x128x128x2 : S128x128x2.ShapeCasts S1x128x128x2
  dot_S128x768_S768x128_S128x128_1_0_0_1_n_n_wf : DotDims.WF S128x768 S768x128 S128x128 [1] [0] [0] [1] [] []
  dot_S16384x128_S128x2_S16384x2_1_0_0_1_n_n_wf : DotDims.WF S16384x128 S128x2 S16384x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S4x128x768.size a
  hwx0_0 : ∀ i : grid0.Coords, EltTy.bits .f32 = 32 ∨ (Rect.block (s := S4x128x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x768.size a ≤ S4x128x768.size a
  hwx0_1 : ∀ i : grid0.Coords, EltTy.bits .f32 = 32 ∨ (Rect.block (s := S4x128x768) S1x128x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x768.size a ≤ S1024x768.size a
  hwx0_2 : ∀ i : grid0.Coords, EltTy.bits .f32 = 32 ∨ (Rect.block (s := S1024x768) S128x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S1024.size a
  hwx0_3 : ∀ i : grid0.Coords, EltTy.bits .f32 = 32 ∨ (Rect.block (s := S1024) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x768.size a ≤ S1024x768.size a
  hwx0_4 : ∀ i : grid0.Coords, EltTy.bits .f32 = 32 ∨ (Rect.block (s := S1024x768) S128x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x128.size a ≤ S2x1024.size a
  hwx0_5 : ∀ i : grid0.Coords, EltTy.bits .f32 = 32 ∨ (Rect.block (s := S2x1024) S2x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128x2.size a ≤ S4x128x128x2.size a
  hwx0_7 : ∀ i : grid0.Coords, EltTy.bits .f32 = 32 ∨ (Rect.block (s := S4x128x128x2) S1x128x128x2.size (cc0_transform_7 i) (hinb0_7 i)).WholeWords (EltTy.packing .f32)

variable [Facts₀]

def dot_S128x768_S768x128_S128x128_1_0_0_1_n_n : DotDims S128x768 S768x128 S128x128 where
  lhsContracting := [1]
  rhsContracting := [0]
  lhsNonContracting := [0]
  rhsNonContracting := [1]
  lhsBatch := []
  rhsBatch := []
  wf := dot_S128x768_S768x128_S128x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x128x128x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x128x768 : Shape := ⟨3, ![4, 128, 768]⟩
abbrev S1024x768 : Shape := ⟨2, ![1024, 768]⟩
abbrev S1024 : Shape := ⟨1, ![1024]⟩
abbrev S2x1024 : Shape := ⟨2, ![2, 1024]⟩
abbrev S2 : Shape := ⟨1, ![2]⟩
abbrev S4x128x1024 : Shape := ⟨3, ![4, 128, 1024]⟩
abbrev S1x1x1024 : Shape := ⟨3, ![1, 1, 1024]⟩
abbrev S4x128x1x1024 : Shape := ⟨4, ![4, 128, 1, 1024]⟩
abbrev S4x1x128x1024 : Shape := ⟨4, ![4, 1, 128, 1024]⟩
abbrev S4x128x128x1024 : Shape := ⟨4, ![4, 128, 128, 1024]⟩
abbrev S_ : Shape := ⟨0, ![]⟩
abbrev S4x128x128x2 : Shape := ⟨4, ![4, 128, 128, 2]⟩
abbrev S1x1x1x2 : Shape := ⟨4, ![1, 1, 1, 2]⟩

abbrev nBuf : Space → Nat
  | .hbm => 24
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S4x128x768, .f32⟩
  | .hbm, ⟨2, _⟩ => ⟨S1024x768, .f32⟩
  | .hbm, ⟨3, _⟩ => ⟨S1024, .f32⟩
  | .hbm, ⟨4, _⟩ => ⟨S1024x768, .f32⟩
  | .hbm, ⟨5, _⟩ => ⟨S2x1024, .f32⟩
  | .hbm, ⟨6, _⟩ => ⟨S2, .f32⟩
  | .hbm, ⟨7, _⟩ => ⟨S4x128x1024, .f32⟩
  | .hbm, ⟨8, _⟩ => ⟨S1x1x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .hbm, ⟨12, _⟩ => ⟨S4x128x1x1024, .f32⟩
  | .hbm, ⟨13, _⟩ => ⟨S4x1x128x1024, .f32⟩
  | .hbm, ⟨14, _⟩ => ⟨S4x128x128x1024, .f32⟩
  | .hbm, ⟨15, _⟩ => ⟨S4x128x128x1024, .f32⟩
  | .hbm, ⟨16, _⟩ => ⟨S4x128x128x1024, .f32⟩
  | .hbm, ⟨17, _⟩ => ⟨S_, .f32⟩
  | .hbm, ⟨18, _⟩ => ⟨S4x128x128x1024, .f32⟩
  | .hbm, ⟨19, _⟩ => ⟨S4x128x128x1024, .f32⟩
  | .hbm, ⟨20, _⟩ => ⟨S4x128x128x2, .f32⟩
  | .hbm, ⟨21, _⟩ => ⟨S1x1x1x2, .f32⟩
  | .hbm, ⟨22, _⟩ => ⟨S4x128x128x2, .f32⟩
  | .hbm, ⟨23, _⟩ => ⟨S4x128x128x2, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x128x1024_0_1_2 : S1x1x1024.BroadcastsInDim S4x128x1024 (![0, 1, 2] : Fin 3 → Fin S4x128x1024.rank)
  bcast_S4x128x1024_S4x128x1x1024_0_1_3 : S4x128x1024.BroadcastsInDim S4x128x1x1024 (![0, 1, 3] : Fin 3 → Fin S4x128x1x1024.rank)
  bcast_S4x128x1024_S4x1x128x1024_0_2_3 : S4x128x1024.BroadcastsInDim S4x1x128x1024 (![0, 2, 3] : Fin 3 → Fin S4x1x128x1024.rank)
  bcast_S4x128x1x1024_S4x128x128x1024_0_1_2_3 : S4x128x1x1024.BroadcastsInDim S4x128x128x1024 (![0, 1, 2, 3] : Fin 4 → Fin S4x128x128x1024.rank)
  bcast_S4x1x128x1024_S4x128x128x1024_0_1_2_3 : S4x1x128x1024.BroadcastsInDim S4x128x128x1024 (![0, 1, 2, 3] : Fin 4 → Fin S4x128x128x1024.rank)
  bcast_S_S4x128x128x1024 : S_.BroadcastsInDim S4x128x128x1024 (![] : Fin 0 → Fin S4x128x128x1024.rank)
  bcast_S2_S1x1x1x2_3 : S2.BroadcastsInDim S1x1x1x2 (![3] : Fin 1 → Fin S1x1x1x2.rank)
  bcast_S1x1x1x2_S4x128x128x2_0_1_2_3 : S1x1x1x2.BroadcastsInDim S4x128x128x2 (![0, 1, 2, 3] : Fin 4 → Fin S4x128x128x2.rank)
  dot_S4x128x768_S1024x768_S4x128x1024_2_1_01_0_n_n_wf : DotDims.WF S4x128x768 S1024x768 S4x128x1024 [2] [1] [0, 1] [0] [] []
  dot_S4x128x128x1024_S2x1024_S4x128x128x2_3_1_012_0_n_n_wf : DotDims.WF S4x128x128x1024 S2x1024 S4x128x128x2 [3] [1] [0, 1, 2] [0] [] []

variable [Facts₀]

def dot_S4x128x768_S1024x768_S4x128x1024_2_1_01_0_n_n : DotDims S4x128x768 S1024x768 S4x128x1024 where
  lhsContracting := [2]
  rhsContracting := [1]
  lhsNonContracting := [0, 1]
  rhsNonContracting := [0]
  lhsBatch := []
  rhsBatch := []
  wf := dot_S4x128x768_S1024x768_S4x128x1024_2_1_01_0_n_n_wf
def dot_S4x128x128x1024_S2x1024_S4x128x128x2_3_1_012_0_n_n : DotDims S4x128x128x1024 S2x1024 S4x128x128x2 where
  lhsContracting := [3]
  rhsContracting := [1]
  lhsNonContracting := [0, 1, 2]
  rhsNonContracting := [0]
  lhsBatch := []
  rhsBatch := []
  wf := dot_S4x128x128x1024_S2x1024_S4x128x128x2_3_1_012_0_n_n_wf

class Facts : Prop extends Facts₀ where

variable [Facts]
-- ==== Proof.Spec.lean ====
/-
  The mathematics of the pair scorer, with no program in sight.

  Inputs: two batches of row vectors X₁, X₂ (4 × 128 × 768), two projections W₁, W₂ (1024 × 768), a hidden bias
  b₁ (1024), an output projection Wₒ (2 × 1024) and an output bias bₒ (2), all over the extended reals.
  For a batch b, a row n of X₁, a row m of X₂ and a hidden unit h,
      u b n h = (Σ_d X₁[b,n,d] · W₁[h,d]) + b₁[h],      v b m h = Σ_d X₂[b,m,d] · W₂[h,d],
  the pair's hidden activation is max (u b n h + v b m h) 0, and the score for output o is
      score[b,n,m,o] = (Σ_h max (u b n h + v b m h) 0 · Wₒ[o,h]) + bₒ[o].
  The one law used downstream: a sum over the 1024 hidden units is the sum, over eight consecutive chunks of 128
  units, of the chunk sums — a regrouping of a finite sum in a commutative monoid, valid at the infinities too.
-/
import Idealize.ShloMosaic.PureOps.Ideal
import Idealize.ShloMosaic.Lib.ValueIdx
import Mathlib.Algebra.BigOperators.Fin
import Mathlib.Logic.Equiv.Fin.Basic

noncomputable section

open scoped BigOperators

namespace PairScore

open Idealize.ShloMosaic Idealize.ShloMosaic.ValueIdx

/-- The two batches of rows. -/
abbrev Rows : Type := (⟨3, ![4, 128, 768]⟩ : Shape).Idx → EReal
/-- A projection onto the hidden units. -/
abbrev Proj : Type := (⟨2, ![1024, 768]⟩ : Shape).Idx → EReal
/-- The hidden bias. -/
abbrev HidBias : Type := (⟨1, ![1024]⟩ : Shape).Idx → EReal
/-- The output projection. -/
abbrev OutProj : Type := (⟨2, ![2, 1024]⟩ : Shape).Idx → EReal
/-- The output bias. -/
abbrev OutBias : Type := (⟨1, ![2]⟩ : Shape).Idx → EReal

/-- Row n of batch b projected on hidden unit h, with the unit's bias. -/
def u (X : Rows) (W : Proj) (B : HidBias) (b : Fin 4) (n : Fin 128) (h : Fin 1024) : EReal :=
  (∑ d : Fin 768, X (ix3 b n d) * W (ix2 h d)) + B (ix1 h)

/-- Row m of batch b projected on hidden unit h, no bias. -/
def v (X : Rows) (W : Proj) (b : Fin 4) (m : Fin 128) (h : Fin 1024) : EReal :=
  ∑ d : Fin 768, X (ix3 b m d) * W (ix2 h d)

/-- Hidden unit h's contribution to output o of the pair (n, m) of batch b. -/
def term (X1 X2 : Rows) (W1 W2 : Proj) (B1 : HidBias) (Wo : OutProj) (b : Fin 4) (n m : Fin 128) (o : Fin 2)
    (h : Fin 1024) : EReal :=
  max (u X1 W1 B1 b n h + v X2 W2 b m h) 0 * Wo (ix2 o h)

/-- The score array. -/
def score (X1 X2 : Rows) (W1 W2 : Proj) (B1 : HidBias) (Wo : OutProj) (Bo : OutBias) :
    (⟨4, ![4, 128, 128, 2]⟩ : Shape).Idx → EReal :=
  fun i => (∑ h : Fin 1024, term X1 X2 W1 W2 B1 Wo (i 0) (i 1) (i 2) (i 3) h) + Bo (ix1 (i 3))

/-- Hidden unit number j of chunk k. -/
def unit (k : Fin 8) (j : Fin 128) : Fin 1024 := ⟨128 * k.val + j.val, by have := k.isLt; have := j.isLt; omega⟩

/-- A sum over the hidden units, chunk by chunk. -/
theorem sum_units {M : Type*} [AddCommMonoid M] (f : Fin 1024 → M) :
    ∑ h : Fin 1024, f h = ∑ k : Fin 8, ∑ j : Fin 128, f (unit k j) := by
  rw [← Finset.sum_product', Finset.univ_product_univ]
  refine (Fintype.sum_equiv (finProdFinEquiv (m := 8) (n := 128)) _ _ fun p => ?_).symm
  refine congrArg f (Fin.ext ?_)
  show 128 * p.1.val + p.2.val = p.2.val + 128 * p.1.val
  omega

/-- The same with the chunks counted by a natural number, as a running sum leaves it. -/
theorem sum_units_range {M : Type*} [AddCommMonoid M] (f : Fin 1024 → M) :
    ∑ h : Fin 1024, f h
      = ∑ s ∈ Finset.range 8, if hs : s < 8 then ∑ j : Fin 128, f (unit ⟨s, hs⟩ j) else 0 := by
  rw [sum_units, Finset.sum_fin_eq_sum_range]

end PairScore

end
-- ==== Proof.RefScore.lean ====
/-
  The reference computes the score array of Spec.lean.

  Its program is: the two projections as contractions over the 768 input features (the first with the hidden bias
  added), the two results broadcast against each other over the pair of row axes and added, the maximum with zero, the
  contraction with the output projection over the 1024 hidden units, and the output bias added. Read at an index
  (b, n, m, o), operation by operation, that is (Σ_h max (u b n h + v b m h) 0 · Wₒ[o,h]) + bₒ[o] on the nose: every
  broadcast reads its operand at the coordinates it keeps, and the zero constant is the extended real 0.
-/
import proofs.«162404_j27625229648164_1_alg».proof.Proof.Gen.ReferenceIdeal.Read
import proofs.«162404_j27625229648164_1_alg».proof.Proof.Spec

noncomputable section

open scoped BigOperators

namespace Cert.ReferenceIdeal.RefScore

open Cert.ReferenceIdeal Cert.ReferenceIdeal.Read Idealize.ShloMosaic Idealize.ShloMosaic.ValueIdx

/-- The reference's last stage, as a function of its seven arguments, is the score array. -/
theorem stage_eq_score (x0 x1 : (⟨S4x128x768, .f32⟩ : BufTy).Contents (Elt Ideal))
    (x2 : (⟨S1024x768, .f32⟩ : BufTy).Contents (Elt Ideal)) (x3 : (⟨S1024, .f32⟩ : BufTy).Contents (Elt Ideal))
    (x4 : (⟨S1024x768, .f32⟩ : BufTy).Contents (Elt Ideal)) (x5 : (⟨S2x1024, .f32⟩ : BufTy).Contents (Elt Ideal))
    (x6 : (⟨S2, .f32⟩ : BufTy).Contents (Elt Ideal)) :
    val_main_v14 (F := Ideal) x0 x1 x2 x3 x4 x5 x6 = PairScore.score x0 x1 x2 x4 x3 x5 x6 := by
  funext i
  rw [val_main_v14_apply, val_main_v11_apply, val_main_v13_apply, val_main_v12_apply]
  unfold PairScore.score
  show (_ : EReal) + _ = _ + _
  -- the bias: both sides read bₒ at the last coordinate
  have eb : idx_main_v12 (idx_main_v13 i) = ix1 (i 3) := funext fun a => match a with | ⟨0, _⟩ => rfl
  rw [eb]
  refine congrArg (· + x6 (ix1 (i 3))) (Finset.sum_congr rfl fun h _ => ?_)
  -- one hidden unit's term
  rw [val_main_v10_apply, val_main_v9_apply, val_main_v7_apply, val_main_v5_apply, val_main_v3_apply,
    val_main_v0_apply, val_main_v2_apply, val_main_v1_apply, val_main_v8_apply, val_main_v6_apply,
    val_main_v4_apply, val_main_call0_v0_apply, val_main_call0_cst_apply]
  have e0 : ∀ d : Fin 768, lidx_main_v0 (idx_main_v5 (idx_main_v7 (lidx_main_v11 i h))) d = ix3 (i 0) (i 1) d :=
    fun d => funext fun a => match a with | ⟨0, _⟩ => rfl | ⟨1, _⟩ => rfl | ⟨2, _⟩ => rfl
  have e2 : ∀ d : Fin 768, ridx_main_v0 (idx_main_v5 (idx_main_v7 (lidx_main_v11 i h))) d = ix2 h d :=
    fun d => funext fun a => match a with | ⟨0, _⟩ => rfl | ⟨1, _⟩ => rfl
  have e3 : idx_main_v1 (idx_main_v2 (idx_main_v5 (idx_main_v7 (lidx_main_v11 i h)))) = ix1 h :=
    funext fun a => match a with | ⟨0, _⟩ => rfl
  have e1 : ∀ d : Fin 768, lidx_main_v4 (idx_main_v6 (idx_main_v8 (lidx_main_v11 i h))) d = ix3 (i 0) (i 2) d :=
    fun d => funext fun a => match a with | ⟨0, _⟩ => rfl | ⟨1, _⟩ => rfl | ⟨2, _⟩ => rfl
  have e4 : ∀ d : Fin 768, ridx_main_v4 (idx_main_v6 (idx_main_v8 (lidx_main_v11 i h))) d = ix2 h d :=
    fun d => funext fun a => match a with | ⟨0, _⟩ => rfl | ⟨1, _⟩ => rfl
  have e5 : ridx_main_v11 i h = ix2 (i 3) h := funext fun a => match a with | ⟨0, _⟩ => rfl | ⟨1, _⟩ => rfl
  simp only [e0, e1, e2, e3, e4, e5]
  unfold PairScore.term PairScore.u PairScore.v
  show max ((_ + _) + _) (Ideal.ofBits .f32 0x00000000#32) * _ = _
  rw [Ideal.ofBits_zero_f32]
  rfl

end Cert.ReferenceIdeal.RefScore

end
-- ==== Proof.Pieces.lean ====
/-
  What one grid point leaves behind, as pure functions of what it found.

  The body at a point reads its six input blocks (a slab of X₁ and of X₂ for the point's batch; the rows of W₁ and W₂,
  the entries of b₁ and the columns of Wₒ for the point's chunk of hidden units), forms the chunk's partial scores P,
  and adds P into the accumulator it carries from point to point. Three kinds of point:
    first of a batch   the accumulator is first set to zero, so the point leaves 0 + P;
    middle             the point leaves acc + P over what the point before left;
    last of a batch    the same, and the output block becomes (acc + P) + bₒ.
  Each statement below says that the stores the body made at such a point, read back, are exactly that function of the
  blocks: every load and every store goes through the whole staging buffer, so a load reads the buffer's contents and
  the last whole store decides what the buffer holds.
-/
import proofs.«162404_j27625229648164_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The chunk's partial scores from the point's six input blocks (the body's own term, its operands in block order:
    the X₁ slab, the X₂ slab, the W₁ rows, the b₁ entries, the W₂ rows, the Wₒ columns). -/
abbrev chunk (x0 x1 : Vec F S1x128x768 .f32) (x2 : Vec F S128x768 .f32) (x3 : Vec F S128 .f32) (x4 : Vec F S128x768 .f32)
    (x5 : Vec F S2x128 .f32) : FVec F S16384x2 .f32 :=
  k0_pay4 x0 x1 x2 x4 x3 x5

/-- First point of a batch: the accumulator ends at (zero block) + P. -/
theorem first_acc (c : Dev nD) (i : grid0.Coords) (arg2 : Memref sig .tc .vmem S1x128x768 .f32) (harg2 : arg2.IsWhole) (arg3 : Memref sig .tc .vmem S1x128x768 .f32) (harg3 : arg3.IsWhole) (arg4 : Memref sig .tc .vmem S128x768 .f32) (harg4 : arg4.IsWhole) (arg5 : Memref sig .tc .vmem S128 .f32) (harg5 : arg5.IsWhole) (arg6 : Memref sig .tc .vmem S128x768 .f32) (harg6 : arg6.IsWhole) (arg7 : Memref sig .tc .vmem S2x128 .f32) (harg7 : arg7.IsWhole) (arg8 : Memref sig .tc .vmem S2 .f32) (harg8 : arg8.IsWhole) (arg9 : Memref sig .tc .vmem S1x128x128x2 .f32) (harg9 : arg9.IsWhole) (arg10 : Memref sig .tc .vmem S128x128x2 .f32) (harg10 : arg10.IsWhole) (hc0 : cond0_0 i) (hc1 : ¬cond0_1 i) (x0 : Vec F S1x128x768 .f32) (x1 : Vec F S1x128x768 .f32) (x2 : Vec F S128x768 .f32) (x3 : Vec F S128 .f32) (x4 : Vec F S128x768 .f32) (x5 : Vec F S2x128 .f32) (x6 : Vec F S2 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay1 (chunk x0 x1 x2 x3 x4 x5) k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S128x128x2) hz3, View.readCov_unit_zero (S := S128x128x2) _ hz3]
  simp only [View.readAt_eq_ld, harg2.read_unread, harg3.read_unread, harg4.read_unread, harg5.read_unread,
    harg6.read_unread, harg7.read_unread, View.ld_unit_zero (S := S1x128x768) hz3, View.ld_unit_zero (S := S128x768) hz2,
    View.ld_unit_zero (S := S128) hz1, View.ld_unit_zero (S := S2x128) hz2]

/-- A middle point: the accumulator ends at acc + P. -/
theorem middle_acc (c : Dev nD) (i : grid0.Coords) (arg2 : Memref sig .tc .vmem S1x128x768 .f32) (harg2 : arg2.IsWhole) (arg3 : Memref sig .tc .vmem S1x128x768 .f32) (harg3 : arg3.IsWhole) (arg4 : Memref sig .tc .vmem S128x768 .f32) (harg4 : arg4.IsWhole) (arg5 : Memref sig .tc .vmem S128 .f32) (harg5 : arg5.IsWhole) (arg6 : Memref sig .tc .vmem S128x768 .f32) (harg6 : arg6.IsWhole) (arg7 : Memref sig .tc .vmem S2x128 .f32) (harg7 : arg7.IsWhole) (arg8 : Memref sig .tc .vmem S2 .f32) (harg8 : arg8.IsWhole) (arg9 : Memref sig .tc .vmem S1x128x128x2 .f32) (harg9 : arg9.IsWhole) (arg10 : Memref sig .tc .vmem S128x128x2 .f32) (harg10 : arg10.IsWhole) (hc0 : ¬cond0_0 i) (hc1 : ¬cond0_1 i) (x0 : Vec F S1x128x768 .f32) (x1 : Vec F S1x128x768 .f32) (x2 : Vec F S128x768 .f32) (x3 : Vec F S128 .f32) (x4 : Vec F S128x768 .f32) (x5 : Vec F S2x128 .f32) (x6 : Vec F S2 .f32) (xs0 : Vec F S128x128x2 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay1 (chunk x0 x1 x2 x3 x4 x5) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S128x128x2) hz3]
  simp only [View.readAt_eq_ld, harg2.read_unread, harg3.read_unread, harg4.read_unread, harg5.read_unread,
    harg6.read_unread, harg7.read_unread, harg10.read_unread, View.ld_unit_zero (S := S1x128x768) hz3,
    View.ld_unit_zero (S := S128x768) hz2, View.ld_unit_zero (S := S128) hz1, View.ld_unit_zero (S := S2x128) hz2,
    View.ld_unit_zero (S := S128x128x2) hz3]

/-- Last point of a batch: the accumulator ends at acc + P, -/
theorem last_acc (c : Dev nD) (i : grid0.Coords) (arg2 : Memref sig .tc .vmem S1x128x768 .f32) (harg2 : arg2.IsWhole) (arg3 : Memref sig .tc .vmem S1x128x768 .f32) (harg3 : arg3.IsWhole) (arg4 : Memref sig .tc .vmem S128x768 .f32) (harg4 : arg4.IsWhole) (arg5 : Memref sig .tc .vmem S128 .f32) (harg5 : arg5.IsWhole) (arg6 : Memref sig .tc .vmem S128x768 .f32) (harg6 : arg6.IsWhole) (arg7 : Memref sig .tc .vmem S2x128 .f32) (harg7 : arg7.IsWhole) (arg8 : Memref sig .tc .vmem S2 .f32) (harg8 : arg8.IsWhole) (arg9 : Memref sig .tc .vmem S1x128x128x2 .f32) (harg9 : arg9.IsWhole) (arg10 : Memref sig .tc .vmem S128x128x2 .f32) (harg10 : arg10.IsWhole) (hc0 : ¬cond0_0 i) (hc1 : cond0_1 i) (x0 : Vec F S1x128x768 .f32) (x1 : Vec F S1x128x768 .f32) (x2 : Vec F S128x768 .f32) (x3 : Vec F S128 .f32) (x4 : Vec F S128x768 .f32) (x5 : Vec F S2x128 .f32) (x6 : Vec F S2 .f32) (xs0 : Vec F S128x128x2 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay1 (chunk x0 x1 x2 x3 x4 x5) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S128x128x2) hz3]
  simp only [View.readAt_eq_ld, harg2.read_unread, harg3.read_unread, harg4.read_unread, harg5.read_unread,
    harg6.read_unread, harg7.read_unread, harg10.read_unread, View.ld_unit_zero (S := S1x128x768) hz3,
    View.ld_unit_zero (S := S128x768) hz2, View.ld_unit_zero (S := S128) hz1, View.ld_unit_zero (S := S2x128) hz2,
    View.ld_unit_zero (S := S128x128x2) hz3]

/-- and the output block at that accumulator plus the output bias. -/
theorem last_out (c : Dev nD) (i : grid0.Coords) (arg2 : Memref sig .tc .vmem S1x128x768 .f32) (harg2 : arg2.IsWhole) (arg3 : Memref sig .tc .vmem S1x128x768 .f32) (harg3 : arg3.IsWhole) (arg4 : Memref sig .tc .vmem S128x768 .f32) (harg4 : arg4.IsWhole) (arg5 : Memref sig .tc .vmem S128 .f32) (harg5 : arg5.IsWhole) (arg6 : Memref sig .tc .vmem S128x768 .f32) (harg6 : arg6.IsWhole) (arg7 : Memref sig .tc .vmem S2x128 .f32) (harg7 : arg7.IsWhole) (arg8 : Memref sig .tc .vmem S2 .f32) (harg8 : arg8.IsWhole) (arg9 : Memref sig .tc .vmem S1x128x128x2 .f32) (harg9 : arg9.IsWhole) (arg10 : Memref sig .tc .vmem S128x128x2 .f32) (harg10 : arg10.IsWhole) (hc0 : ¬cond0_0 i) (hc1 : cond0_1 i) (x0 : Vec F S1x128x768 .f32) (x1 : Vec F S1x128x768 .f32) (x2 : Vec F S128x768 .f32) (x3 : Vec F S128 .f32) (x4 : Vec F S128x768 .f32) (x5 : Vec F S2x128 .f32) (x6 : Vec F S2 .f32) (xs0 : Vec F S128x128x2 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x6 (k0_pay1 (chunk x0 x1 x2 x3 x4 x5) xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S1x128x128x2) hz4, View.readCov_unit_zero (S := S128x128x2) _ hz3]
  simp only [View.readAt_eq_ld, harg2.read_unread, harg3.read_unread, harg4.read_unread, harg5.read_unread,
    harg6.read_unread, harg7.read_unread, harg8.read_unread, harg10.read_unread, View.ld_unit_zero (S := S1x128x768) hz3,
    View.ld_unit_zero (S := S128x768) hz2, View.ld_unit_zero (S := S128) hz1, View.ld_unit_zero (S := S2x128) hz2,
    View.ld_unit_zero (S := S128x128x2) hz3, View.ld_unit_zero (S := S2) hz1]

end Cert.KernelIdeal.Pieces

end
-- ==== Proof.Points.lean ====
/-
  The grid's points and what each reads.

  The grid is 4 batches by 8 chunks, walked batch by batch: point t is chunk t mod 8 of batch t div 8. At point t the
  windows of the seven arguments sit at: the slabs of X₁ and X₂ at batch t div 8; the rows of W₁ and W₂, the entries of
  b₁ and the columns of Wₒ at chunk t mod 8 (128 hidden units each); the output bias whole; and the output block is the
  batch's 128 × 128 × 2 slab of scores. These are facts about the printed index maps, decided once over the 32 points.
  From them: each input block read at an entry is the argument array read at the entry's place in the array.
  Last, what a point leaves in the carried accumulator, as the update of the partial scores over what it found there
  (a batch's first point finds it freshly zeroed).
-/
import proofs.«162404_j27625229648164_1_alg».proof.Proof.Gen.KernelIdeal.Value
import proofs.«162404_j27625229648164_1_alg».proof.Proof.Pieces
import proofs.«162404_j27625229648164_1_alg».proof.Proof.Spec

noncomputable section

open Idealize.ShloMosaic Idealize.ShloMosaic.TcCoe Idealize.SL.Sem

namespace Cert.KernelIdeal.Points

open Cert.KernelIdeal Cert.KernelIdeal.Gen Cert.KernelIdeal.Value Idealize.ShloMosaic.ValueIdx

variable (m : (ℓ : Loc nD τ sig) → Buf (Elt Ideal) ℓ)

/-- The batch of point t. -/
def batchOf (t : Fin cfg0.N) : Fin 4 := ⟨t.val / 8, by have := t.isLt; have : cfg0.N = 32 := N_0; omega⟩
/-- The chunk of point t. -/
def chunkOf (t : Fin cfg0.N) : Fin 8 := ⟨t.val % 8, Nat.mod_lt _ (by decide)⟩

/-- Where each window sits at point t. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = t.val % 8 ∧ win0_2.index t (1 : Fin 2) = 0
    ∧ win0_3.index t (0 : Fin 1) = t.val % 8
    ∧ win0_4.index t (0 : Fin 2) = t.val % 8 ∧ win0_4.index t (1 : Fin 2) = 0
    ∧ win0_5.index t (0 : Fin 2) = 0 ∧ win0_5.index t (1 : Fin 2) = t.val % 8
    ∧ win0_6.index t (0 : Fin 1) = 0
    ∧ win0_7.index t (0 : Fin 4) = t.val / 8 ∧ win0_7.index t (1 : Fin 4) = 0 ∧ win0_7.index t (2 : Fin 4) = 0
    ∧ win0_7.index t (3 : Fin 4) = 0 :=
  (by decide +kernel : ∀ t : Fin grid0.N, _)

/-! ## The argument arrays as the region finds them, and the blocks read at an entry -/

abbrev X1 (c : Dev nD) : PairScore.Rows := V m c main_arg0
abbrev X2 (c : Dev nD) : PairScore.Rows := V m c main_arg1
abbrev W1 (c : Dev nD) : PairScore.Proj := V m c main_arg2
abbrev B1 (c : Dev nD) : PairScore.HidBias := V m c main_arg3
abbrev W2 (c : Dev nD) : PairScore.Proj := V m c main_arg4
abbrev Wo (c : Dev nD) : PairScore.OutProj := V m c main_arg5
abbrev Bo (c : Dev nD) : PairScore.OutBias := V m c main_arg6

theorem blk0_apply (c : Dev nD) (t : Fin cfg0.N) (u : Fin 1) (n : Fin 128) (d : Fin 768) :
    (iblk m c 0 t : Vec Ideal S1x128x768 .f32) (ix3 u n d) = X1 m c (ix3 (batchOf t) n d) := by
  obtain ⟨e0, e1, e2, -⟩ := idx_facts t
  unfold iblk
  rw [View.read_apply]
  show V m c main_arg0 _ = V m c main_arg0 _
  refine congrArg _ (funext fun a => Fin.ext ?_)
  match a with
  | ⟨0, _⟩ => show win0_0.index t (0 : Fin 3) * 1 + 1 * u.val = t.val / 8; have := u.isLt; omega
  | ⟨1, _⟩ => show win0_0.index t (1 : Fin 3) * 128 + 1 * n.val = n.val; omega
  | ⟨2, _⟩ => show win0_0.index t (2 : Fin 3) * 768 + 1 * d.val = d.val; omega

theorem blk1_apply (c : Dev nD) (t : Fin cfg0.N) (u : Fin 1) (n : Fin 128) (d : Fin 768) :
    (iblk m c 1 t : Vec Ideal S1x128x768 .f32) (ix3 u n d) = X2 m c (ix3 (batchOf t) n d) := by
  obtain ⟨-, -, -, e0, e1, e2, -⟩ := idx_facts t
  unfold iblk
  rw [View.read_apply]
  show V m c main_arg1 _ = V m c main_arg1 _
  refine congrArg _ (funext fun a => Fin.ext ?_)
  match a with
  | ⟨0, _⟩ => show win0_1.index t (0 : Fin 3) * 1 + 1 * u.val = t.val / 8; have := u.isLt; omega
  | ⟨1, _⟩ => show win0_1.index t (1 : Fin 3) * 128 + 1 * n.val = n.val; omega
  | ⟨2, _⟩ => show win0_1.index t (2 : Fin 3) * 768 + 1 * d.val = d.val; omega

theorem blk2_apply (c : Dev nD) (t : Fin cfg0.N) (j : Fin 128) (d : Fin 768) :
    (iblk m c 2 t : Vec Ideal S128x768 .f32) (ix2 j d) = W1 m c (ix2 (PairScore.unit (chunkOf t) j) d) := by
  obtain ⟨-, -, -, -, -, -, e0, e1, -⟩ := idx_facts t
  unfold iblk
  rw [View.read_apply]
  show V m c main_arg2 _ = V m c main_arg2 _
  refine congrArg _ (funext fun a => Fin.ext ?_)
  match a with
  | ⟨0, _⟩ => show win0_2.index t (0 : Fin 2) * 128 + 1 * j.val = 128 * (t.val % 8) + j.val; omega
  | ⟨1, _⟩ => show win0_2.index t (1 : Fin 2) * 768 + 1 * d.val = d.val; omega

theorem blk3_apply (c : Dev nD) (t : Fin cfg0.N) (j : Fin 128) :
    (iblk m c 3 t : Vec Ideal S128 .f32) (ix1 j) = B1 m c (ix1 (PairScore.unit (chunkOf t) j)) := by
  obtain ⟨-, -, -, -, -, -, -, -, e0, -⟩ := idx_facts t
  unfold iblk
  rw [View.read_apply]
  show V m c main_arg3 _ = V m c main_arg3 _
  refine congrArg _ (funext fun a => Fin.ext ?_)
  match a with
  | ⟨0, _⟩ => show win0_3.index t (0 : Fin 1) * 128 + 1 * j.val = 128 * (t.val % 8) + j.val; omega

theorem blk4_apply (c : Dev nD) (t : Fin cfg0.N) (j : Fin 128) (d : Fin 768) :
    (iblk m c 4 t : Vec Ideal S128x768 .f32) (ix2 j d) = W2 m c (ix2 (PairScore.unit (chunkOf t) j) d) := by
  obtain ⟨-, -, -, -, -, -, -, -, -, e0, e1, -⟩ := idx_facts t
  unfold iblk
  rw [View.read_apply]
  show V m c main_arg4 _ = V m c main_arg4 _
  refine congrArg _ (funext fun a => Fin.ext ?_)
  match a with
  | ⟨0, _⟩ => show win0_4.index t (0 : Fin 2) * 128 + 1 * j.val = 128 * (t.val % 8) + j.val; omega
  | ⟨1, _⟩ => show win0_4.index t (1 : Fin 2) * 768 + 1 * d.val = d.val; omega

theorem blk5_apply (c : Dev nD) (t : Fin cfg0.N) (o : Fin 2) (j : Fin 128) :
    (iblk m c 5 t : Vec Ideal S2x128 .f32) (ix2 o j) = Wo m c (ix2 o (PairScore.unit (chunkOf t) j)) := by
  obtain ⟨-, -, -, -, -, -, -, -, -, -, -, e0, e1, -⟩ := idx_facts t
  unfold iblk
  rw [View.read_apply]
  show V m c main_arg5 _ = V m c main_arg5 _
  refine congrArg _ (funext fun a => Fin.ext ?_)
  match a with
  | ⟨0, _⟩ => show win0_5.index t (0 : Fin 2) * 2 + 1 * o.val = o.val; omega
  | ⟨1, _⟩ => show win0_5.index t (1 : Fin 2) * 128 + 1 * j.val = 128 * (t.val % 8) + j.val; omega

theorem blk6_apply (c : Dev nD) (t : Fin cfg0.N) (o : Fin 2) :
    (iblk m c 6 t : Vec Ideal S2 .f32) (ix1 o) = Bo m c (ix1 o) := by
  obtain ⟨-, -, -, -, -, -, -, -, -, -, -, -, -, e0, -⟩ := idx_facts t
  unfold iblk
  rw [View.read_apply]
  show V m c main_arg6 _ = V m c main_arg6 _
  refine congrArg _ (funext fun a => Fin.ext ?_)
  match a with
  | ⟨0, _⟩ => show win0_6.index t (0 : Fin 1) * 2 + 1 * o.val = o.val; omega

/-! ## What a point leaves in the carried accumulator -/

/-- The partial scores of point t. -/
abbrev partialAt (c : Dev nD) (t : Fin cfg0.N) : FVec Ideal S16384x2 .f32 :=
  Pieces.chunk (iblk m c 0 t) (iblk m c 1 t) (iblk m c 2 t) (iblk m c 3 t) (iblk m c 4 t) (iblk m c 5 t)

/-- A batch's first point leaves (zeros) + P, whatever it found. -/
theorem acc_first (c : Dev nD) (n : ℕ) (hb : n < cfg0.N) (h0 : n % 8 = 0) (acc : Vec Ideal S128x128x2 .f32) :
    scAt0_0 m c n hb acc = k0_pay1 (partialAt m c ⟨n, hb⟩) (k0_pay3 (F := Ideal)) := by
  have h1 : ¬n % 8 = 7 := by omega
  unfold scAt0_0
  rw [dif_pos h0, dif_neg h1]
  exact Pieces.first_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))

/-- Every other point leaves acc + P over what it found. -/
theorem acc_later (c : Dev nD) (n : ℕ) (hb : n < cfg0.N) (h0 : ¬n % 8 = 0) (acc : Vec Ideal S128x128x2 .f32) :
    scAt0_0 m c n hb acc = k0_pay1 (partialAt m c ⟨n, hb⟩) acc := by
  unfold scAt0_0
  rw [dif_neg h0]
  by_cases h1 : n % 8 = 7
  · rw [dif_pos h1]
    exact Pieces.last_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc
  · rw [dif_neg h1]
    exact Pieces.middle_acc c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc

/-- At a batch's last point the output's staging buffer is the accumulator the point leaves, plus the output bias. -/
theorem out_last (c : Dev nD) (t : Fin cfg0.N) (h1 : t.val % 8 = 7) :
    (outsAt0 m c t.val t.isLt).1 = k0_pay2 (iblk m c 6 t) (outsAt0 m c t.val t.isLt).2 := by
  have h0 : ¬t.val % 8 = 0 := by omega
  rw [outsAt0_C m c t h0 h1]
  dsimp only
  rw [Pieces.last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    Pieces.last_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]

end Cert.KernelIdeal.Points

end
-- ==== Proof.Payloads.lean ====
/-
  The body's arithmetic read at one entry, over the extended reals.

  A point's partial scores P form a 16384 × 2 matrix whose row 128·n + m belongs to the pair (row n of the X₁ slab,
  row m of the X₂ slab). With x₁, x₂ the slabs, w₁, w₂ the chunk's rows of the two projections, β the chunk's hidden
  biases and ω the chunk's columns of the output projection,
      P[128·n + m, o] = Σ_j max ((Σ_d x₁[n,d] · w₁[j,d]) + β[j] + Σ_d x₂[m,d] · w₂[j,d]) 0 · ω[o,j],
  j over the chunk's 128 hidden units: a matrix product into a zero accumulator is the plain sum of products, a
  transposed operand is read with its coordinates swapped, a change of float format is the identity, a reshape keeps
  the row-major position, and a broadcast repeats along the new axis. The accumulator update adds P's entry for the
  pair to the accumulator's, the reset stores zeros, and the output block adds the output bias.
-/
import proofs.«162404_j27625229648164_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The row of the pair (n, m) in the flattened 16384-row matrices. -/
def pairRow (n m : Fin 128) : Fin 16384 := ⟨128 * n.val + m.val, by have := n.isLt; have := m.isLt; omega⟩

/-! ## The projection product: rows of a slab against rows of a projection, over the 768 features -/

theorem projL_0 (i : S128x128.Idx) (q : dot_S128x768_S768x128_S128x128_1_0_0_1_n_n.contr.Idx) :
    (dot_S128x768_S768x128_S128x128_1_0_0_1_n_n.lhsIdx i q 0).val = (i 0).val := by
  unfold DotDims.lhsIdx
  rw [dif_neg (show ¬(0 : Fin S128x768.rank) ∈ dot_S128x768_S768x128_S128x128_1_0_0_1_n_n.lhsBatch by decide), dif_pos (show (0 : Fin S128x768.rank) ∈ dot_S128x768_S768x128_S128x128_1_0_0_1_n_n.lhsNonContracting by decide)]
  rfl
theorem projL_1 (i : S128x128.Idx) (q : dot_S128x768_S768x128_S128x128_1_0_0_1_n_n.contr.Idx) :
    (dot_S128x768_S768x128_S128x128_1_0_0_1_n_n.lhsIdx i q 1).val = (q ⟨0, by decide⟩).val :=
  dot_S128x768_S768x128_S128x128_1_0_0_1_n_n.lhsIdx_val_of_single rfl i q
theorem projR_0 (i : S128x128.Idx) (q : dot_S128x768_S768x128_S128x128_1_0_0_1_n_n.contr.Idx) :
    (dot_S128x768_S768x128_S128x128_1_0_0_1_n_n.rhsIdx i q 0).val = (q ⟨0, by decide⟩).val :=
  dot_S128x768_S768x128_S128x128_1_0_0_1_n_n.rhsIdx_val_of_single rfl i q
theorem projR_1 (i : S128x128.Idx) (q : dot_S128x768_S768x128_S128x128_1_0_0_1_n_n.contr.Idx) :
    (dot_S128x768_S768x128_S128x128_1_0_0_1_n_n.rhsIdx i q 1).val = (i 1).val := by
  unfold DotDims.rhsIdx
  rw [dif_neg (show ¬(1 : Fin S768x128.rank) ∈ dot_S128x768_S768x128_S128x128_1_0_0_1_n_n.rhsBatch by decide), dif_pos (show (1 : Fin S768x128.rank) ∈ dot_S128x768_S768x128_S128x128_1_0_0_1_n_n.rhsNonContracting by decide)]
  rfl

/-- Entry (n, j) of a 128 × 768 by 768 × 128 product into zeros: the sum over the features. -/
theorem proj_apply (x : FVec Ideal S128x768 .bf16) (w : FVec Ideal S768x128 .bf16) (n j : Fin 128) :
    matmul dot_S128x768_S768x128_S128x128_1_0_0_1_n_n none x w (constant (F := Ideal) S128x128 .f32 0x00000000#32) (ix2 n j)
      = ∑ d : Fin 768, x (ix2 n d) * w (ix2 d j) := by
  simp only [matmul]
  rw [Ideal.matmul_constant_zero_apply, ← Equiv.sum_comp (contrEquiv1 dot_S128x768_S768x128_S128x128_1_0_0_1_n_n 768 rfl rfl).symm]
  refine Finset.sum_congr rfl fun d _ => ?_
  have hd := contrEquiv1_symm_val dot_S128x768_S768x128_S128x128_1_0_0_1_n_n 768 rfl rfl d
  have el : dot_S128x768_S768x128_S128x128_1_0_0_1_n_n.lhsIdx (ix2 n j) ((contrEquiv1 dot_S128x768_S768x128_S128x128_1_0_0_1_n_n 768 rfl rfl).symm d) = ix2 n d := funext fun a => Fin.ext (by
    match a with
    | ⟨0, _⟩ => exact projL_0 _ _
    | ⟨1, _⟩ => exact (projL_1 _ _).trans hd)
  have er : dot_S128x768_S768x128_S128x128_1_0_0_1_n_n.rhsIdx (ix2 n j) ((contrEquiv1 dot_S128x768_S768x128_S128x128_1_0_0_1_n_n 768 rfl rfl).symm d) = ix2 d j := funext fun a => Fin.ext (by
    match a with
    | ⟨0, _⟩ => exact (projR_0 _ _).trans hd
    | ⟨1, _⟩ => exact projR_1 _ _)
  rw [el, er]

/-! ## The output product: the 16384 pair rows against the output projection's columns, over the chunk's 128 units -/

theorem outL_0 (i : S16384x2.Idx) (q : dot_S16384x128_S128x2_S16384x2_1_0_0_1_n_n.contr.Idx) :
    (dot_S16384x128_S128x2_S16384x2_1_0_0_1_n_n.lhsIdx i q 0).val = (i 0).val := by
  unfold DotDims.lhsIdx
  rw [dif_neg (show ¬(0 : Fin S16384x128.rank) ∈ dot_S16384x128_S128x2_S16384x2_1_0_0_1_n_n.lhsBatch by decide), dif_pos (show (0 : Fin S16384x128.rank) ∈ dot_S16384x128_S128x2_S16384x2_1_0_0_1_n_n.lhsNonContracting by decide)]
  rfl
theorem outL_1 (i : S16384x2.Idx) (q : dot_S16384x128_S128x2_S16384x2_1_0_0_1_n_n.contr.Idx) :
    (dot_S16384x128_S128x2_S16384x2_1_0_0_1_n_n.lhsIdx i q 1).val = (q ⟨0, by decide⟩).val :=
  dot_S16384x128_S128x2_S16384x2_1_0_0_1_n_n.lhsIdx_val_of_single rfl i q
theorem outR_0 (i : S16384x2.Idx) (q : dot_S16384x128_S128x2_S16384x2_1_0_0_1_n_n.contr.Idx) :
    (dot_S16384x128_S128x2_S16384x2_1_0_0_1_n_n.rhsIdx i q 0).val = (q ⟨0, by decide⟩).val :=
  dot_S16384x128_S128x2_S16384x2_1_0_0_1_n_n.rhsIdx_val_of_single rfl i q
theorem outR_1 (i : S16384x2.Idx) (q : dot_S16384x128_S128x2_S16384x2_1_0_0_1_n_n.contr.Idx) :
    (dot_S16384x128_S128x2_S16384x2_1_0_0_1_n_n.rhsIdx i q 1).val = (i 1).val := by
  unfold DotDims.rhsIdx
  rw [dif_neg (show ¬(1 : Fin S128x2.rank) ∈ dot_S16384x128_S128x2_S16384x2_1_0_0_1_n_n.rhsBatch by decide), dif_pos (show (1 : Fin S128x2.rank) ∈ dot_S16384x128_S128x2_S16384x2_1_0_0_1_n_n.rhsNonContracting by decide)]
  rfl

/-- Entry (r, o) of a 16384 × 128 by 128 × 2 product into zeros: the sum over the chunk's units. -/
theorem out_apply (a : FVec Ideal S16384x128 .bf16) (w : FVec Ideal S128x2 .bf16) (r : Fin 16384) (o : Fin 2) :
    matmul dot_S16384x128_S128x2_S16384x2_1_0_0_1_n_n none a w (constant (F := Ideal) S16384x2 .f32 0x00000000#32) (ix2 r o)
      = ∑ j : Fin 128, a (ix2 r j) * w (ix2 j o) := by
  simp only [matmul]
  rw [Ideal.matmul_constant_zero_apply, ← Equiv.sum_comp (contrEquiv1 dot_S16384x128_S128x2_S16384x2_1_0_0_1_n_n 128 rfl rfl).symm]
  refine Finset.sum_congr rfl fun j _ => ?_
  have hj := contrEquiv1_symm_val dot_S16384x128_S128x2_S16384x2_1_0_0_1_n_n 128 rfl rfl j
  have el : dot_S16384x128_S128x2_S16384x2_1_0_0_1_n_n.lhsIdx (ix2 r o) ((contrEquiv1 dot_S16384x128_S128x2_S16384x2_1_0_0_1_n_n 128 rfl rfl).symm j) = ix2 r j := funext fun a => Fin.ext (by
    match a with
    | ⟨0, _⟩ => exact outL_0 _ _
    | ⟨1, _⟩ => exact (outL_1 _ _).trans hj)
  have er : dot_S16384x128_S128x2_S16384x2_1_0_0_1_n_n.rhsIdx (ix2 r o) ((contrEquiv1 dot_S16384x128_S128x2_S16384x2_1_0_0_1_n_n 128 rfl rfl).symm j) = ix2 j o := funext fun a => Fin.ext (by
    match a with
    | ⟨0, _⟩ => exact (outR_0 _ _).trans hj
    | ⟨1, _⟩ => exact outR_1 _ _)
  rw [el, er]

/-! ## The chunk's partial scores at an entry -/

/-- A slab's row n against a projection's row j: the body casts the 1 × 128 × 768 slab to 128 × 768, transposes the
    projection's rows, and multiplies into zeros. -/
theorem slab_proj_apply (x : Vec Ideal S1x128x768 .f32) (w : Vec Ideal S128x768 .f32) (n j : Fin 128) :
    matmul dot_S128x768_S768x128_S128x128_1_0_0_1_n_n none
        (truncf .bf16 (shapeCast S128x768 x shapeCasts_S1x128x768_S128x768) bitsLt_bf16_f32)
        (transpose S768x128 [1, 0] (truncf .bf16 w bitsLt_bf16_f32) transposes_S128x768_p1_0_S768x128)
        (constant (F := Ideal) S128x128 .f32 0x00000000#32) (ix2 n j)
      = ∑ d : Fin 768, x (ix3 (0 : Fin 1) n d) * w (ix2 j d) :=
  (proj_apply _ _ n j).trans (Finset.sum_congr rfl fun d _ =>
    congrArg₂ (· * ·) (shapeCast_1ab_ab_apply x shapeCasts_S1x128x768_S128x768 n d)
      ((transpose_ix2_apply (truncf (F := Ideal) (φ := .f32) .bf16 w bitsLt_bf16_f32) transposes_S128x768_p1_0_S768x128 d j).trans rfl))

theorem chunk_apply (v3 v6 : Vec Ideal S1x128x768 .f32) (v9 v11 : Vec Ideal S128x768 .f32) (v13 : Vec Ideal S128 .f32)
    (v14 : Vec Ideal S2x128 .f32) (n m : Fin 128) (o : Fin 2) :
    k0_pay4 (F := Ideal) v3 v6 v9 v11 v13 v14 (ix2 (pairRow n m) o)
      = ∑ j : Fin 128, max (((∑ d : Fin 768, v3 (ix3 (0 : Fin 1) n d) * v9 (ix2 j d)) + v13 (ix1 j))
          + ∑ d : Fin 768, v6 (ix3 (0 : Fin 1) m d) * v11 (ix2 j d)) 0 * v14 (ix2 o j) := by
  unfold k0_pay4
  refine (out_apply _ _ (pairRow n m) o).trans (Finset.sum_congr rfl fun j _ => ?_)
  refine congrArg₂ (· * ·) ?_ ((transpose_ix2_apply (truncf (F := Ideal) (φ := .f32) .bf16 v14 bitsLt_bf16_f32) transposes_S2x128_p1_0_S128x2 j o).trans rfl)
  -- the pair's activation on unit j: row 128·n + m of the flattened matrix is entry (n, m) of the 128 × 128 × 128 block
  refine (shapeCast_apply _ shapeCasts_S128x128x128_S16384x128 (ix2 (pairRow n m) j) (ix3 n m j) ?_).trans ?_
  · rw [Shape.rowMajor_val_three, Shape.rowMajor_val_two]
    show (n.val * 128 + m.val) * 128 + j.val = (128 * n.val + m.val) * 128 + j.val
    omega
  show max (_ + _) (Ideal.ofBits .f32 0x00000000#32) = _
  rw [Ideal.ofBits_zero_f32]
  refine congrArg (fun z => max z 0) (congrArg₂ (· + ·) ?_ ?_)
  · -- the X₁ side, repeated along the m axis
    refine (broadcastTo_apply _ broadcasts_S128x1x128_S128x128x128 (ix3 n m j) (ix3 n (0 : Fin 1) j) fun a => ?_).trans ?_
    · match a with
      | ⟨0, _⟩ => show n.val = if (128 : Nat) = 1 then 0 else n.val; rw [if_neg (by decide)]
      | ⟨1, _⟩ => show 0 = if (1 : Nat) = 1 then 0 else m.val; rw [if_pos rfl]
      | ⟨2, _⟩ => show j.val = if (128 : Nat) = 1 then 0 else j.val; rw [if_neg (by decide)]
    refine (shapeCast_apply _ shapeCasts_S128x128_S128x1x128 (ix3 n (0 : Fin 1) j) (ix2 n j) ?_).trans ?_
    · rw [Shape.rowMajor_val_three, Shape.rowMajor_val_two]
      show n.val * 128 + j.val = (n.val * 1 + 0) * 128 + j.val
      omega
    show _ + _ = _
    refine congrArg₂ (· + ·) (slab_proj_apply v3 v9 n j) ?_
    exact (broadcastTo_1b_ab_apply _ broadcasts_S1x128_S128x128 n j).trans (shapeCast_a_1a_apply v13 shapeCasts_S128_S1x128 0 j)
  · -- the X₂ side, repeated along the n axis
    refine (broadcastTo_apply _ broadcasts_S1x128x128_S128x128x128 (ix3 n m j) (ix3 (0 : Fin 1) m j) fun a => ?_).trans ?_
    · match a with
      | ⟨0, _⟩ => show 0 = if (1 : Nat) = 1 then 0 else n.val; rw [if_pos rfl]
      | ⟨1, _⟩ => show m.val = if (128 : Nat) = 1 then 0 else m.val; rw [if_neg (by decide)]
      | ⟨2, _⟩ => show j.val = if (128 : Nat) = 1 then 0 else j.val; rw [if_neg (by decide)]
    exact (shapeCast_ab_1ab_apply _ shapeCasts_S128x128_S1x128x128 0 m j).trans (slab_proj_apply v6 v11 m j)

/-! ## The accumulator's update, its reset, and the output block at an entry -/

/-- The reset stores zeros. -/
theorem reset_apply (y : S128x128x2.Idx) : k0_pay3 (F := Ideal) y = 0 := by
  unfold k0_pay3
  rw [shapeCast_self]
  exact Ideal.ofBits_zero_f32

/-- The update adds the pair's entry of the partial scores to the accumulator's. -/
theorem update_apply (p : FVec Ideal S16384x2 .f32) (acc : Vec Ideal S128x128x2 .f32) (n m : Fin 128) (o : Fin 2) :
    k0_pay1 (F := Ideal) p acc (ix3 n m o) = acc (ix3 n m o) + p (ix2 (pairRow n m) o) := by
  unfold k0_pay1
  rw [shapeCast_self]
  show _ + _ = _
  refine congrArg (acc (ix3 n m o) + ·) (shapeCast_apply p shapeCasts_S16384x2_S128x128x2 (ix3 n m o) (ix2 (pairRow n m) o) ?_)
  rw [Shape.rowMajor_val_three, Shape.rowMajor_val_two]
  show (128 * n.val + m.val) * 2 + o.val = (n.val * 128 + m.val) * 2 + o.val
  omega

/-- The output block is the accumulator plus the output bias along the last axis. -/
theorem emit_apply (bo : Vec Ideal S2 .f32) (acc : Vec Ideal S128x128x2 .f32) (u : Fin 1) (n m : Fin 128) (o : Fin 2) :
    k0_pay2 (F := Ideal) bo acc (ix4 u n m o) = acc (ix3 n m o) + bo (ix1 o) := by
  unfold k0_pay2
  refine (shapeCast_abc_1abc_apply _ shapeCasts_S128x128x2_S1x128x128x2 u n m o).trans ?_
  show _ + _ = _
  refine congrArg (acc (ix3 n m o) + ·) ?_
  refine (broadcastTo_apply _ broadcasts_S1x1x2_S128x128x2 (ix3 n m o) (ix3 (0 : Fin 1) (0 : Fin 1) o) fun a => ?_).trans ?_
  · match a with
    | ⟨0, _⟩ => show 0 = if (1 : Nat) = 1 then 0 else n.val; rw [if_pos rfl]
    | ⟨1, _⟩ => show 0 = if (1 : Nat) = 1 then 0 else m.val; rw [if_pos rfl]
    | ⟨2, _⟩ => show o.val = if (2 : Nat) = 1 then 0 else o.val; rw [if_neg (by decide)]
  refine shapeCast_apply bo shapeCasts_S2_S1x1x2 (ix3 (0 : Fin 1) (0 : Fin 1) o) (ix1 o) ?_
  rw [Shape.rowMajor_val_three, Shape.rowMajor_val_one]
  show o.val = (0 * 1 + 0) * 2 + o.val
  omega

end Cert.KernelIdeal.Payloads

end
-- ==== Proof.ChunkTerms.lean ====
/-
  A point's partial scores are the score's terms over the point's chunk of hidden units.

  At the point of batch b and chunk k the six input blocks are windows of the argument arrays: the slabs are X₁[b] and
  X₂[b], the projection rows are W₁ and W₂ at the chunk's units 128·k + j, the hidden biases are b₁ at those units, and
  the output projection's columns are Wₒ[·, 128·k + j]. Substituting these reads in the entry formula of the partial
  scores gives, for the pair (n, m) and output o, the sum over j of the score's term at unit 128·k + j.
-/
import proofs.«162404_j27625229648164_1_alg».proof.Proof.Payloads
import proofs.«162404_j27625229648164_1_alg».proof.Proof.Spec

noncomputable section

open scoped BigOperators

namespace Cert.KernelIdeal.ChunkTerms

open Cert.KernelIdeal Cert.KernelIdeal.Gen Cert.KernelIdeal.Payloads Idealize.ShloMosaic Idealize.ShloMosaic.ValueIdx

theorem chunk_eq_terms (x0 x1 : Vec Ideal S1x128x768 .f32) (x2 : Vec Ideal S128x768 .f32) (x3 : Vec Ideal S128 .f32)
    (x4 : Vec Ideal S128x768 .f32) (x5 : Vec Ideal S2x128 .f32)
    (X1 X2 : PairScore.Rows) (W1 W2 : PairScore.Proj) (B1 : PairScore.HidBias) (Wo : PairScore.OutProj)
    (b : Fin 4) (k : Fin 8)
    (h0 : ∀ (u : Fin 1) (n : Fin 128) (d : Fin 768), x0 (ix3 u n d) = X1 (ix3 b n d))
    (h1 : ∀ (u : Fin 1) (n : Fin 128) (d : Fin 768), x1 (ix3 u n d) = X2 (ix3 b n d))
    (h2 : ∀ (j : Fin 128) (d : Fin 768), x2 (ix2 j d) = W1 (ix2 (PairScore.unit k j) d))
    (h3 : ∀ j : Fin 128, x3 (ix1 j) = B1 (ix1 (PairScore.unit k j)))
    (h4 : ∀ (j : Fin 128) (d : Fin 768), x4 (ix2 j d) = W2 (ix2 (PairScore.unit k j) d))
    (h5 : ∀ (o : Fin 2) (j : Fin 128), x5 (ix2 o j) = Wo (ix2 o (PairScore.unit k j)))
    (n m : Fin 128) (o : Fin 2) :
    k0_pay4 (F := Ideal) x0 x1 x2 x4 x3 x5 (ix2 (pairRow n m) o)
      = ∑ j : Fin 128, PairScore.term X1 X2 W1 W2 B1 Wo b n m o (PairScore.unit k j) := by
  rw [chunk_apply]
  refine Finset.sum_congr rfl fun j _ => ?_
  unfold PairScore.term PairScore.u PairScore.v
  simp only [h0, h1, h2, h3, h4, h5]

end Cert.KernelIdeal.ChunkTerms

end
-- ==== Proof.Final.lean ====
/-
  The kernel's result array is the score array.

  Over a batch's eight points the carried accumulator is a running sum: the first point leaves 0 + P₀, each later point
  adds its own partial scores, so after the batch's last point the accumulator's entry for the pair (n, m) and output o
  is 0 + Σ_s P_s[128·n + m, o], s over the batch's eight chunks — and P_s's entry is the sum of the score's terms over
  chunk s. A sum over the 1024 hidden units regrouped chunk by chunk is exactly that, so the output block written back
  at the batch's last point, accumulator plus output bias, is the batch's slab of the score array. The four last points
  write the four slabs, which tile the array.
-/
import proofs.«162404_j27625229648164_1_alg».proof.Proof.Points
import proofs.«162404_j27625229648164_1_alg».proof.Proof.ChunkTerms

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Value Cert.KernelIdeal.Points Cert.KernelIdeal.Payloads
open Idealize.ShloMosaic.ValueIdx

variable (m : (ℓ : Loc nD τ sig) → Buf (Elt Ideal) ℓ) (ρ : Dev nD → PrngReg)

/-- The score array of the arguments as the region finds them. -/
abbrev result (c : Dev nD) : Buf (Elt Ideal) ((c : Thread nD τ).loc main_v0) :=
  PairScore.score (X1 m c) (X2 m c) (W1 m c) (W2 m c) (B1 m c) (Wo m c) (Bo m c)

/-- What point number k adds to the accumulator's entry i (nothing past the grid). -/
def addend (c : Dev nD) (k : ℕ) (i : S128x128x2.Idx) : EReal :=
  if h : k < cfg0.N then partialAt m c ⟨k, h⟩ (ix2 (pairRow (i 0) (i 1)) (i 2)) else 0

/-- After point t the accumulator is zero plus the addends of the batch's points up to t. -/
theorem acc_after (c : Dev nD) (t : Fin cfg0.N) (i : S128x128x2.Idx) :
    (outsAt0 m c t.val t.isLt).2 i
      = 0 + ∑ s ∈ Finset.range (t.val % 8 + 1), addend m c (8 * (t.val / 8) + s) i := by
  rw [soutsAt0_0_eq m c t]
  refine Pipeline.accAt_add_apply (fun n h => scAt0_0 m c n h (VS0_0.read (Elt Ideal) VS0_0.junk)) (scAt0_0 m c)
    (fun _ => 0) (addend m c) (8 * (t.val / 8)) 7 (fun h i => ?_) (fun n h acc i hlt hle => ?_) (t.val % 8)
    (by omega) _ i
  · obtain ⟨a, b, o, rfl⟩ : ∃ a b o, i = ix3 a b o := ⟨i 0, i 1, i 2, eq_ix3 i⟩
    show scAt0_0 m c (8 * (t.val / 8)) h (VS0_0.read (Elt Ideal) VS0_0.junk) (ix3 a b o) = 0 + addend m c (8 * (t.val / 8)) (ix3 a b o)
    rw [acc_first m c _ h (by omega), update_apply, reset_apply]
    unfold addend
    rw [dif_pos h]
  · obtain ⟨a, b, o, rfl⟩ : ∃ a b o, i = ix3 a b o := ⟨i 0, i 1, i 2, eq_ix3 i⟩
    rw [acc_later m c n h (by omega) acc, update_apply]
    unfold addend
    rw [dif_pos h]

/-- A point's addend is the score's terms summed over the point's chunk. -/
theorem addend_eq (c : Dev nD) (t : Fin cfg0.N) (n mm : Fin 128) (o : Fin 2) :
    addend m c t.val (ix3 n mm o)
      = ∑ j : Fin 128, PairScore.term (X1 m c) (X2 m c) (W1 m c) (W2 m c) (B1 m c) (Wo m c) (batchOf t) n mm o
          (PairScore.unit (chunkOf t) j) := by
  unfold addend
  rw [dif_pos t.isLt]
  exact ChunkTerms.chunk_eq_terms (iblk m c 0 t) (iblk m c 1 t) (iblk m c 2 t) (iblk m c 3 t) (iblk m c 4 t) (iblk m c 5 t)
    (X1 m c) (X2 m c) (W1 m c) (W2 m c) (B1 m c) (Wo m c) (batchOf t) (chunkOf t)
    (blk0_apply m c t) (blk1_apply m c t) (blk2_apply m c t) (blk3_apply m c t) (blk4_apply m c t) (blk5_apply m c t) n mm o

/-- An index of the score array is in point t's output block iff each coordinate is in the block's range. -/
theorem mem_blk (t : Fin cfg0.N) (i : S4x128x128x2.Idx) :
    i ∈ ((cfg0.win 7).blk t).view.set ↔ ∀ a : Fin 4, win0_7.index t a * S1x128x128x2.size a ≤ (i a).val
      ∧ (i a).val < win0_7.index t a * S1x128x128x2.size a + S1x128x128x2.size a := by
  show i ∈ ((View.whole main_v0).slice (win0_7.rect t)).set ↔ _
  rw [View.set_slice_whole, Rect.mem_set_unit]
  exact Iff.rfl

/-- What a batch's last point writes back is its block of the score array. -/
theorem flushed_eq (c : Dev nD) (t : Fin cfg0.N) (hf : (cfg0.win 7).flush t = true) :
    (dats m 0 c).flushed 7 t = ((cfg0.win 7).blk t).view.read (Elt Ideal) (result m c) := by
  have h7 : t.val % 8 = 7 := (flush0_7 t).mp hf
  have hN : cfg0.N = 32 := N_0
  have htN : t.val < 32 := hN ▸ t.isLt
  rw [flushed7, out_last m c t h7]
  refine funext fun (y : S1x128x128x2.Idx) => ?_
  obtain ⟨u, n, mm, o, rfl⟩ : ∃ u n mm o, y = ix4 u n mm o := ⟨y 0, y 1, y 2, y 3, eq_ix4 y⟩
  rw [View.read_apply]
  have hemb : ((cfg0.win 7).blk t).view.emb (ix4 u n mm o) = ix4 (batchOf t) n mm o := by
    obtain ⟨-, -, -, -, -, -, -, -, -, -, -, -, -, -, e0, e1, e2, e3⟩ := idx_facts t
    refine funext fun a => Fin.ext ?_
    match a with
    | ⟨0, _⟩ => show win0_7.index t (0 : Fin 4) * 1 + 1 * u.val = t.val / 8; have := u.isLt; omega
    | ⟨1, _⟩ => show win0_7.index t (1 : Fin 4) * 128 + 1 * n.val = n.val; omega
    | ⟨2, _⟩ => show win0_7.index t (2 : Fin 4) * 128 + 1 * mm.val = mm.val; omega
    | ⟨3, _⟩ => show win0_7.index t (3 : Fin 4) * 2 + 1 * o.val = o.val; omega
  rw [hemb]
  show k0_pay2 (F := Ideal) (iblk m c 6 t) (outsAt0 m c t.val t.isLt).2 (ix4 u n mm o) = _
  rw [emit_apply, acc_after, blk6_apply, zero_add, h7]
  unfold result PairScore.score
  show _ = (∑ h : Fin 1024, PairScore.term (X1 m c) (X2 m c) (W1 m c) (W2 m c) (B1 m c) (Wo m c) (batchOf t) n mm o h) + Bo m c (ix1 o)
  rw [PairScore.sum_units_range]
  refine congrArg (· + Bo m c (ix1 o)) (Finset.sum_congr rfl fun s hs => ?_)
  have hs8 : s < 8 := Finset.mem_range.mp hs
  rw [dif_pos hs8]
  have hlt : 8 * (t.val / 8) + s < cfg0.N := by omega
  have hb : batchOf ⟨8 * (t.val / 8) + s, hlt⟩ = batchOf t := Fin.ext (by show (8 * (t.val / 8) + s) / 8 = t.val / 8; omega)
  have hk : chunkOf ⟨8 * (t.val / 8) + s, hlt⟩ = ⟨s, hs8⟩ := Fin.ext (by show (8 * (t.val / 8) + s) % 8 = s; omega)
  have := addend_eq m c ⟨8 * (t.val / 8) + s, hlt⟩ n mm o
  rw [hb, hk] at this
  exact this

/-- The four last points' blocks tile the score array. -/
theorem cover (i : S4x128x128x2.Idx) :
    ∃ t : Fin cfg0.N, (cfg0.win 7).flush t = true ∧ i ∈ ((cfg0.win 7).blk t).view.set := by
  have hN : cfg0.N = 32 := N_0
  have hi0 : (i 0).val < 4 := (i 0).isLt
  have hi1 : (i 1).val < 128 := (i 1).isLt
  have hi2 : (i 2).val < 128 := (i 2).isLt
  have hi3 : (i 3).val < 2 := (i 3).isLt
  have ht : 8 * (i 0).val + 7 < cfg0.N := by omega
  refine ⟨⟨8 * (i 0).val + 7, ht⟩, (flush0_7 _).mpr (by show (8 * (i 0).val + 7) % 8 = 7; omega), ?_⟩
  rw [mem_blk]
  obtain ⟨-, -, -, -, -, -, -, -, -, -, -, -, -, -, e0, e1, e2, e3⟩ := idx_facts ⟨8 * (i 0).val + 7, ht⟩
  have e0' : win0_7.index ⟨8 * (i 0).val + 7, ht⟩ (0 : Fin 4) = (i 0).val := by rw [e0]; show (8 * (i 0).val + 7) / 8 = _; omega
  intro a
  match a with
  | ⟨0, _⟩ => show win0_7.index ⟨8 * (i 0).val + 7, ht⟩ (0 : Fin 4) * 1 ≤ (i 0).val ∧ (i 0).val < win0_7.index ⟨8 * (i 0).val + 7, ht⟩ (0 : Fin 4) * 1 + 1; omega
  | ⟨1, _⟩ => show win0_7.index ⟨8 * (i 0).val + 7, ht⟩ (1 : Fin 4) * 128 ≤ (i 1).val ∧ (i 1).val < win0_7.index ⟨8 * (i 0).val + 7, ht⟩ (1 : Fin 4) * 128 + 128; omega
  | ⟨2, _⟩ => show win0_7.index ⟨8 * (i 0).val + 7, ht⟩ (2 : Fin 4) * 128 ≤ (i 2).val ∧ (i 2).val < win0_7.index ⟨8 * (i 0).val + 7, ht⟩ (2 : Fin 4) * 128 + 128; omega
  | ⟨3, _⟩ => show win0_7.index ⟨8 * (i 0).val + 7, ht⟩ (3 : Fin 4) * 2 ≤ (i 3).val ∧ (i 3).val < win0_7.index ⟨8 * (i 0).val + 7, ht⟩ (3 : Fin 4) * 2 + 2; omega

/-- So the result array ends holding the score array. -/
theorem final (c : Dev nD) : (dats m 0 c).arrAt 7 cfg0.N = result m c :=
  (dats m 0 c).arrAt_eq_of_cover 7 (result m c) (flushed_eq m c) cover

/-- The run, read: the result array at the score array of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Final

end
-- ==== Proof.lean ====
/-
  A fused pair scorer against its plain reference, over the extended reals.

  Both programs compute, for every batch b, every row n of X₁[b], every row m of X₂[b] and each of two outputs o,
      score[b,n,m,o] = (Σ_h max ((X₁[b,n,·]·W₁[h,·] + b₁[h]) + X₂[b,m,·]·W₂[h,·]) 0 · Wₒ[o,h]) + bₒ[o],
  h over 1024 hidden units. The reference forms the whole 4 × 128 × 128 × 1024 activation array and contracts it once.
  The kernel never forms it: for each batch it walks the hidden units in eight chunks of 128, forms the chunk's
  activations for all 128 × 128 pairs, contracts them with the chunk's columns of Wₒ, and adds the result into an
  accumulator that starts at zero; after the eighth chunk it adds bₒ and writes the batch's slab of scores.
  The two agree because a finite sum in a commutative monoid may be regrouped into consecutive chunks and summed chunk by
  chunk from zero: no cancellation, no distributivity, so nothing is asked of the inputs beyond what the statement
  assumes, and the infinities need no separate treatment. The kernel's changes of float format are identities over the
  extended reals, and its idealization rewrote nothing.

  The pieces: Spec (the score and the regrouping law), RefScore (the reference is the score), Pieces (what a grid
  point stores, as functions of what it loaded), Payloads (those functions at an entry), ChunkTerms (a point's partial
  scores are the score's terms over its chunk), Points (which windows a point reads, and the accumulator's step), Final
  (the running sum, the written blocks, and the result array).
-/
import proofs.«162404_j27625229648164_1_alg».proof.Defs
import proofs.«162404_j27625229648164_1_alg».proof.Proof.Gen.Kernel
import proofs.«162404_j27625229648164_1_alg».proof.Proof.Gen.Kernel.Skeleton
import proofs.«162404_j27625229648164_1_alg».proof.Proof.Gen.Kernel.Launch
import proofs.«162404_j27625229648164_1_alg».proof.Proof.Gen.Kernel.Points
import proofs.«162404_j27625229648164_1_alg».proof.Proof.Gen.Kernel.Frame
import proofs.«162404_j27625229648164_1_alg».proof.Proof.Gen.KernelIdeal
import proofs.«162404_j27625229648164_1_alg».proof.Proof.Gen.KernelIdeal.Skeleton
import proofs.«162404_j27625229648164_1_alg».proof.Proof.Gen.KernelIdeal.Launch
import proofs.«162404_j27625229648164_1_alg».proof.Proof.Gen.KernelIdeal.Points
import proofs.«162404_j27625229648164_1_alg».proof.Proof.Gen.KernelIdeal.Frame
import proofs.«162404_j27625229648164_1_alg».proof.Proof.Gen.ReferenceIdeal
import proofs.«162404_j27625229648164_1_alg».proof.Proof.Gen.Pre_finite_inputs
import proofs.«162404_j27625229648164_1_alg».proof.Proof.Gen.KernelIdeal.Value
import proofs.«162404_j27625229648164_1_alg».proof.Proof.Gen.ReferenceIdeal.Run
import proofs.«162404_j27625229648164_1_alg».proof.Proof.Gen.ReferenceIdeal.Read
import proofs.«162404_j27625229648164_1_alg».proof.Proof.RefScore
import proofs.«162404_j27625229648164_1_alg».proof.Proof.Final
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: it runs, and writes only its own results. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the seven arguments, the kernel's result array and the reference's both end at the
    score array of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefScore.stage_eq_score,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
